-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x32 : Shape := ⟨2, ![4194304, 32]⟩
abbrev S_ : Shape := ⟨0, ![]⟩

class Facts : Prop where
  bcast_S_S4194304x32 : S_.BroadcastsInDim S4194304x32 (![] : Fin 0 → Fin S4194304x32.rank)
  reducesTo_S4194304x32_S_d0_1 : S4194304x32.ReducesTo [0, 1] S_
  h_S_ : 0 < S_.numel
  reducesTo_S_S_d : S_.ReducesTo [] S_

variable [Facts]

def fn {F : FTy → Type} [FloatOps F] (main_arg0 : FVec F S4194304x32 .f32) (main_arg1 : FVec F S4194304x32 .f32) (main_arg2 : FVec F S_ .f32) : IVec S_ 1 :=
  let main_v0 : FVec F S4194304x32 .f32 := Host.absf main_arg0
  let main_cst : FVec F S_ .f32 := constant S_ .f32 0x7F800000#32
  let main_v1 : FVec F S4194304x32 .f32 := broadcastInDim S4194304x32 ![] bcast_S_S4194304x32 main_cst
  let main_v2 : IVec S4194304x32 1 := cmpf .olt main_v0 main_v1
  let main_c : IVec S_ 1 := constantI S_ 1 1#1
  let main_v3 : IVec S_ 1 := (fun x v => Host.reduce IntOp.andi x v reducesTo_S4194304x32_S_d0_1 h_S_) main_v2 main_c
  let main_v4 : FVec F S4194304x32 .f32 := Host.absf main_arg1
  let main_cst_0 : FVec F S_ .f32 := constant S_ .f32 0x7F800000#32
  let main_v5 : FVec F S4194304x32 .f32 := broadcastInDim S4194304x32 ![] bcast_S_S4194304x32 main_cst_0
  let main_v6 : IVec S4194304x32 1 := cmpf .olt main_v4 main_v5
  let main_c_1 : IVec S_ 1 := constantI S_ 1 1#1
  let main_v7 : IVec S_ 1 := (fun x v => Host.reduce IntOp.andi x v reducesTo_S4194304x32_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S4194304x32 : Shape := ⟨2, ![4194304, 32]⟩
abbrev S_ : Shape := ⟨0, ![]⟩
abbrev S2x1x1 : Shape := ⟨3, ![2, 1, 1]⟩
abbrev S8192x32 : Shape := ⟨2, ![8192, 32]⟩
abbrev S1x1x1 : Shape := ⟨3, ![1, 1, 1]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S2 : Shape := ⟨1, ![2]⟩

abbrev nBuf : Space → Nat
  | .hbm => 24
  | .vmem => 6
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S_, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S8192x32, .f32⟩
  | .local _ .vmem, ⟨1, _⟩ => ⟨S8192x32, .f32⟩
  | .local _ .vmem, ⟨2, _⟩ => ⟨S8192x32, .f32⟩
  | .local _ .vmem, ⟨3, _⟩ => ⟨S8192x32, .f32⟩
  | .local _ .vmem, ⟨4, _⟩ => ⟨S1x1x1, .f32⟩
  | .local _ .vmem, ⟨5, _⟩ => ⟨S1x1x1, .f32⟩
  | _, _ => ⟨S4194304x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_cst_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_5 : Ref sig .tc := ⟨.hbm, 17, rfl⟩
abbrev main_v8 : Ref sig .tc := ⟨.hbm, 18, rfl⟩
abbrev main_v9 : Ref sig .tc := ⟨.hbm, 19, rfl⟩
abbrev main_cst_6 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S8192x32_S8192x32_0_0 : ∀ a, (![0, 0] : Fin 2 → Nat) a + S8192x32.size a ≤ S8192x32.size a
  h_S8192x32 : 0 < S8192x32.numel
  reduces_S8192x32_S8192 : S8192x32.Reduces [1] S8192
  shapeCasts_S8192_S8192x1 : S8192.ShapeCasts S8192x1
  reduces_S8192x1_S1 : S8192x1.Reduces [0] S1
  shapeCasts_S1_S1x1 : S1.ShapeCasts S1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S4194304x32.size a
  hwx0_0 : ∀ i : grid0.Coords, EltTy.bits .f32 = 32 ∨ (Rect.block (s := S4194304x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S4194304x32.size a
  hwx0_1 : ∀ i : grid0.Coords, EltTy.bits .f32 = 32 ∨ (Rect.block (s := S4194304x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x32 : Shape := ⟨2, ![4194304, 32]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S_, .f32⟩
  | .hbm, ⟨3, _⟩ => ⟨S4194304x32, .f32⟩
  | .hbm, ⟨4, _⟩ => ⟨S4194304x32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S4194304x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_cst_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_5 : Ref sig .tc := ⟨.hbm, 17, rfl⟩
abbrev main_v8 : Ref sig .tc := ⟨.hbm, 18, rfl⟩
abbrev main_v9 : Ref sig .tc := ⟨.hbm, 19, rfl⟩
abbrev main_cst_6 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  reducesTo_S4194304x32_S_d0_1 : S4194304x32.ReducesTo [0, 1] S_
  h_S_ : 0 < S_.numel

variable [Facts₀]

class Facts : Prop extends Facts₀ where

variable [Facts]
-- ==== Proof.TileSum.lean ====
/-
  One tile's contribution. At a grid point the body holds two 8192 x 32 blocks, one of each argument, and the running
  total (a 1 x 1 x 1 block). It subtracts the blocks entry by entry, squares, adds each row's 32 lanes, adds the 8192
  row sums, and adds the result to the running total. Read over the extended reals, where the lane and row reductions
  are plain finite sums, what it stores is: running total + the sum over the tile of (a - b)^2. The reset stores zero.
-/
import proofs.«122282_j16166256902676_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileSum

open Cert.KernelIdeal Cert.KernelIdeal.Gen Idealize.ShloMosaic Idealize.ShloMosaic.ValueIdx

/-- The sum over a tile of the squared differences of two blocks. -/
def tileSq (x0 x1 : Vec Ideal S8192x32 .f32) : EReal :=
  ∑ r : Fin 8192, ∑ l : Fin 32, (x0 (ix2 r l) - x1 (ix2 r l)) * (x0 (ix2 r l) - x1 (ix2 r l))

/-- A 1 x 1 x 1 block has one index: every coordinate is zero. -/
theorem unit3 (y : S1x1x1.Idx) : (y 0).val = 0 ∧ (y 1).val = 0 ∧ (y 2).val = 0 := by
  have h0 : (y 0).val < 1 := (y 0).isLt
  have h1 : (y 1).val < 1 := (y 1).isLt
  have h2 : (y 2).val < 1 := (y 2).isLt
  omega

/-- The reset stores zero. -/
theorem reset_apply (y : S1x1x1.Idx) : k0_pay1 (F := Ideal) y = 0 := by
  unfold k0_pay1
  refine (shapeCast_apply _ _ y (ix2 (0 : Fin 1) (0 : Fin 1)) (by
    obtain ⟨h0, h1, h2⟩ := unit3 y
    rw [Shape.rowMajor_val_two, Shape.rowMajor_val_three]
    show (0 : ℕ) * 1 + 0 = ((y 0).val * 1 + (y 1).val) * 1 + (y 2).val
    omega)).trans ?_
  exact Ideal.ofBits_zero_f32

/-- The update stores the running total plus the tile's sum of squared differences. -/
theorem update_apply (x0 x1 : Vec Ideal S8192x32 .f32) (acc : Vec Ideal S1x1x1 .f32) (y : S1x1x1.Idx) :
    k0_pay2 x0 x1 acc y = acc y + tileSq x0 x1 := by
  obtain ⟨h0, h1, h2⟩ := unit3 y
  unfold k0_pay2
  dsimp only
  refine (shapeCast_apply _ _ y (ix2 (0 : Fin 1) (0 : Fin 1)) (by
    rw [Shape.rowMajor_val_two, Shape.rowMajor_val_three]
    show (0 : ℕ) * 1 + 0 = ((y 0).val * 1 + (y 1).val) * 1 + (y 2).val
    omega)).trans ?_
  rw [addf_apply]
  congr 1
  · exact shapeCast_apply _ _ (ix2 (0 : Fin 1) (0 : Fin 1)) y (by
      rw [Shape.rowMajor_val_two, Shape.rowMajor_val_three]
      show ((y 0).val * 1 + (y 1).val) * 1 + (y 2).val = (0 : ℕ) * 1 + 0
      omega)
  · refine (shapeCast_apply _ _ (ix2 (0 : Fin 1) (0 : Fin 1)) (ix1 (0 : Fin 1)) (by
      rw [Shape.rowMajor_val_one, Shape.rowMajor_val_two]; rfl)).trans ?_
    refine (Ideal.multiReduction_add_single _ _ _ _ _ _).trans ?_
    show ∑ r : Fin 8192, _ = _
    unfold tileSq
    refine Finset.sum_congr rfl fun r _ => ?_
    refine (shapeCast_apply _ _ _ (ix1 r) (by
      rw [Shape.rowMajor_val_one, Shape.rowMajor_val_two]
      show r.val = r.val * 1 + 0
      omega)).trans ?_
    refine (Ideal.multiReduction_add_single _ _ _ _ _ _).trans ?_
    show ∑ l : Fin 32, _ = _
    refine Finset.sum_congr rfl fun l _ => ?_
    have e : reduces_S8192x32_S8192.lift (ix1 r) l = ix2 r l := by
      funext a; apply Fin.ext
      match a with
      | ⟨0, _⟩ => rfl
      | ⟨1, _⟩ => rfl
    rw [e]
    rfl

end Cert.KernelIdeal.TileSum

end
-- ==== Proof.Regroup.lean ====
/-
  Regrouping a finite sum. The kernel adds the squared differences tile by tile: a tile is 8192 consecutive rows of 32
  lanes, 256 consecutive tiles are accumulated into one running total, and the two totals are added at the end; the
  reference adds all 4194304 x 32 of them at once. Addition here is that of a commutative monoid (the extended reals in
  the use made of it), so the order and the grouping of the terms do not matter and no term has to be finite. This file
  has the three facts the comparison rests on: a sum over m * n consecutive positions is the sum over m blocks of n
  positions; the running total inside a group of 256 obeys "start afresh at a multiple of 256, otherwise add the next
  term"; and the two groups of 256 tiles together are all the rows.
-/
import Mathlib.Algebra.BigOperators.Fin
import Mathlib.Data.Fintype.BigOperators
import Mathlib.Logic.Equiv.Fin.Basic

namespace Cert.SumSq

open Finset

variable {M : Type*} [AddCommMonoid M]

/-- Position `r` of block `k`, counted from the start, lies among the `m * n` positions. -/
theorem blk_lt {m n : ℕ} (k : Fin m) (r : Fin n) : n * k.val + r.val < m * n := by
  have h1 : n * k.val + r.val < n * (k.val + 1) := by rw [Nat.mul_succ]; exact Nat.add_lt_add_left r.isLt _
  have h2 : n * (k.val + 1) ≤ n * m := Nat.mul_le_mul_left n k.isLt
  rw [Nat.mul_comm m n]; exact Nat.lt_of_lt_of_le h1 h2

/-- A sum over `m * n` consecutive positions is the sum, block by block, over `m` blocks of `n` positions each. -/
theorem sum_fin_blocks (m n N : ℕ) (hN : m * n = N) (g : Fin N → M) :
    ∑ a : Fin N, g a = ∑ k : Fin m, ∑ r : Fin n, g ⟨n * k.val + r.val, hN ▸ blk_lt k r⟩ := by
  subst hN
  rw [← Equiv.sum_comp finProdFinEquiv g, Fintype.sum_prod_type]
  refine Finset.sum_congr rfl fun k _ => Finset.sum_congr rfl fun r _ => ?_
  congr 1
  apply Fin.ext
  show r.val + n * k.val = n * k.val + r.val
  exact Nat.add_comm _ _

/-- The running total after term `n` within its group of 256 consecutive terms: the terms of the group up to `n`. -/
def runSum (T : ℕ → M) (n : ℕ) : M := ∑ j ∈ range (n % 256 + 1), T (n - n % 256 + j)

/-- At the first term of a group the running total is that term. -/
theorem runSum_start (T : ℕ → M) (n : ℕ) (h : n % 256 = 0) : runSum T n = T n := by
  simp [runSum, h]

/-- Elsewhere it is the running total before, plus the term. -/
theorem runSum_step (T : ℕ → M) (n : ℕ) (h : ¬n % 256 = 0) : runSum T n = runSum T (n - 1) + T n := by
  unfold runSum
  have e1 : (n - 1) % 256 + 1 = n % 256 := by omega
  have e2 : n - 1 - (n - 1) % 256 = n - n % 256 := by omega
  have e3 : n - n % 256 + n % 256 = n := by omega
  rw [Finset.sum_range_succ, e1, e2, e3]

/-- After the last term of group `p` it is the whole group. -/
theorem runSum_last (T : ℕ → M) (p : ℕ) : runSum T (256 * p + 255) = ∑ j ∈ range 256, T (256 * p + j) := by
  unfold runSum
  have e1 : (256 * p + 255) % 256 = 255 := by omega
  have e2 : 256 * p + 255 - 255 = 256 * p := by omega
  rw [e1, e2]

/-- The two group totals together are the sum over every row and lane, when term `k` is the sum over tile `k`'s 8192
    rows and 32 lanes. -/
theorem groups_total (D : Fin 4194304 → Fin 32 → M) (T : ℕ → M)
    (hT : ∀ k : Fin 512, T k.val = ∑ r : Fin 8192, ∑ l : Fin 32, D ⟨8192 * k.val + r.val, blk_lt k r⟩ l) :
    ∑ p : Fin 2, ∑ j ∈ range 256, T (256 * p.val + j) = ∑ a : Fin 4194304, ∑ l : Fin 32, D a l := by
  rw [sum_fin_blocks 512 8192 4194304 rfl fun a => ∑ l : Fin 32, D a l]
  rw [sum_fin_blocks 2 256 512 rfl fun k : Fin 512 => ∑ r : Fin 8192, ∑ l : Fin 32, D ⟨8192 * k.val + r.val, blk_lt k r⟩ l]
  refine Finset.sum_congr rfl fun p _ => ?_
  rw [Finset.sum_range]
  refine Finset.sum_congr rfl fun j _ => ?_
  exact hT ⟨256 * p.val + j.val, blk_lt p j⟩

end Cert.SumSq
-- ==== Proof.Accum.lean ====
/-
  The running total across the grid. The grid has 512 points; point n works on tile n (rows 8192 n to 8192 n + 8191)
  and on the 1 x 1 x 1 output block of its half, n / 256. At a point whose position in its half is zero the body first
  stores zero, and at every point it stores "what the block held + the tile's sum of squared differences". So after
  point n the block holds the sum of the tile terms of its half up to n: by induction on the point.
-/
import proofs.«122282_j16166256902676_1_alg».proof.Proof.Gen.KernelIdeal.Frame
import proofs.«122282_j16166256902676_1_alg».proof.Proof.TileSum
import proofs.«122282_j16166256902676_1_alg».proof.Proof.Regroup
import Idealize.ShloMosaic.Lib.Pipeline.Value
import Idealize.ShloMosaic.Lib.Tactic

noncomputable section

namespace Cert.KernelIdeal.Accum

open Cert.KernelIdeal Cert.KernelIdeal.Gen Cert.KernelIdeal.TileSum Cert.SumSq
open Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

section AnyValues
variable {F : FTy → Type} [FloatOps F]

/-- Away from the start of a half the body leaves the update of the two input blocks and of what the block held. -/
theorem out_B (c : Dev nD) (i : grid0.Coords) (a2 : Memref sig .tc .vmem S8192x32 .f32) (h2 : a2.IsWhole)
    (a3 : Memref sig .tc .vmem S8192x32 .f32) (h3 : a3.IsWhole) (a4 : Memref sig .tc .vmem S1x1x1 .f32) (h4 : a4.IsWhole)
    (hc : ¬cond0_0 i) (x0 x1 : Vec F S8192x32 .f32) (xo : Vec F S1x1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S8192x32) hz2,
    View.ld_unit_zero (S := S1x1x1) hz3]

/-- At the start of a half it stores the reset value, reads it back, and leaves the update over it. -/
theorem out_A (c : Dev nD) (i : grid0.Coords) (a2 : Memref sig .tc .vmem S8192x32 .f32) (h2 : a2.IsWhole)
    (a3 : Memref sig .tc .vmem S8192x32 .f32) (h3 : a3.IsWhole) (a4 : Memref sig .tc .vmem S1x1x1 .f32) (h4 : a4.IsWhole)
    (hc : cond0_0 i) (x0 x1 : Vec F S8192x32 .f32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S8192x32) hz2]

end AnyValues

variable (m : (ℓ : Loc nD τ sig) → Buf (Elt Ideal) ℓ)

/-- The two input blocks at a point, at their literal type. -/
abbrev blkA (c : Dev nD) (t : Fin cfg0.N) : Vec Ideal S8192x32 .f32 := iblk m c 0 t
abbrev blkB (c : Dev nD) (t : Fin cfg0.N) : Vec Ideal S8192x32 .f32 := iblk m c 1 t

/-- Tile `k`'s term: the sum over the tile of the squared differences (zero past the grid). -/
def term (c : Dev nD) (k : ℕ) : EReal :=
  if h : k < cfg0.N then tileSq (blkA m c ⟨k, h⟩) (blkB m c ⟨k, h⟩) else 0

theorem term_of_lt (c : Dev nD) (k : ℕ) (h : k < cfg0.N) : term m c k = tileSq (blkA m c ⟨k, h⟩) (blkB m c ⟨k, h⟩) :=
  dif_pos h

/-- After point `n` the output block holds the running total of its half up to `n`. -/
theorem acc_eq (c : Dev nD) : ∀ (n : ℕ) (h : n < cfg0.N) (y : S1x1x1.Idx), outsAt0 m c n h y = runSum (term m c) n
  | 0, h, y => by
    rw [outsAt0_A m c ⟨0, h⟩ rfl, out_A]
    refine (update_apply (blkA m c ⟨0, h⟩) (blkB m c ⟨0, h⟩) (k0_pay1 (F := Ideal)) y).trans ?_
    rw [reset_apply, zero_add, runSum_start _ _ rfl, term_of_lt m c 0 h]
  | n + 1, h, y => by
    by_cases h0 : (n + 1) % 256 = 0
    · rw [outsAt0_A m c ⟨n + 1, h⟩ h0, out_A]
      refine (update_apply (blkA m c ⟨n + 1, h⟩) (blkB m c ⟨n + 1, h⟩) (k0_pay1 (F := Ideal)) y).trans ?_
      rw [reset_apply, zero_add, runSum_start _ _ h0, term_of_lt m c (n + 1) h]
    · rw [outsAt0_B m c ⟨n + 1, h⟩ h0, out_B]
      refine (update_apply (blkA m c ⟨n + 1, h⟩) (blkB m c ⟨n + 1, h⟩) _ y).trans ?_
      rw [runSum_step _ _ h0, term_of_lt m c (n + 1) h]
      show outsAt0 m c n _ y + _ = runSum (term m c) n + _
      rw [acc_eq c n]

end Cert.KernelIdeal.Accum

end
-- ==== Proof.Final.lean ====
/-
  What the kernel leaves. The output array has two entries, one per half of the grid; a half's block is written back
  after its last point, 256 p + 255, when it holds the total of the half's 256 tile terms. The host lines after the
  call reshape the two entries to a vector, add them from zero, and combine the sum with the scalar argument. Tile k of
  the grid is rows 8192 k to 8192 k + 8191 of the arguments, so the two halves' totals together are the sum over every
  row and lane of the squared difference.
-/
import proofs.«122282_j16166256902676_1_alg».proof.Proof.Accum
import Idealize.ShloMosaic.Lib.Pipeline.Value
import Idealize.ShloMosaic.Lib.StableHlo.Run
import Idealize.ShloMosaic.Lib.Tactic

noncomputable section

namespace Cert.KernelIdeal.Final

open Cert.KernelIdeal Cert.KernelIdeal.Gen Cert.KernelIdeal.TileSum Cert.KernelIdeal.Accum Cert.SumSq
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The output array: entry p is the total of half p -/

/-- Entry `(p, 0, 0)`: the 256 tile terms of half `p`. -/
def halvesFn (c : Dev nD) : S2x1x1.Idx → EReal := fun i => ∑ j ∈ Finset.range 256, term m c (256 * (i 0).val + j)
abbrev halves (c : Dev nD) : Buf (Elt Ideal) ((c : Thread nD τ).loc main_v0) := halvesFn m c

/-- The index maps over the grid: the output's block is its half, an input's block is its tile. -/
theorem idx_out : ∀ t : Fin cfg0.N, win0_2.index t (0 : Fin 3) = t.val / 256 ∧ win0_2.index t (1 : Fin 3) = 0 ∧ win0_2.index t (2 : Fin 3) = 0 :=
  (by decide +kernel : ∀ t : Fin grid0.N, _)
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What the last point of a half writes back is that half's entry of `halves`. -/
theorem flushed_eq (c : Dev nD) (t : Fin cfg0.N) (hf : (cfg0.win 2).flush t = true) :
    (dats m 0 c).flushed 2 t = ((cfg0.win 2).blk t).view.read (Elt Ideal) (halves m c) := by
  have h255 : t.val % 256 = 255 := (flush0_2 t).mp hf
  show (cfg0.win 2).cut (grid0.coords t) ((dats m 0 c).after 2 t) = _
  rw [after0_2]
  funext y
  rw [View.read_apply]
  show outsAt0 m c t.val t.isLt y = halvesFn m c (((cfg0.win 2).blk t).view.emb y)
  have e0 : ((((cfg0.win 2).blk t).view.emb y) 0).val = t.val / 256 := by
    show win0_2.index t 0 * 1 + 1 * (y 0).val = _
    have : (y 0).val < 1 := (y 0).isLt
    rw [(idx_out t).1]; omega
  rw [acc_eq m c t.val t.isLt y]
  show runSum (term m c) t.val = ∑ j ∈ Finset.range 256, term m c (256 * ((((cfg0.win 2).blk t).view.emb y) 0).val + j)
  rw [e0]
  have hp : t.val = 256 * (t.val / 256) + 255 := by omega
  exact (congrArg (runSum (term m c)) hp).trans (runSum_last _ _)

/-- An entry is in point `t`'s block iff each coordinate is in the block's range. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Entry `(p, 0, 0)` is written back by the last point of half `p`. -/
theorem cover (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 512 := N_0
  obtain ⟨t, ht⟩ : ∃ t : Fin cfg0.N, t.val = 256 * (i 0).val + 255 := ⟨⟨256 * (i 0).val + 255, by rw [hN]; omega⟩, rfl⟩
  obtain ⟨e0, e1, e2⟩ := idx_out t
  refine ⟨t, (flush0_2 t).mpr (by omega), ?_⟩
  rw [mem_blk]
  intro a
  match a with
  | ⟨0, _⟩ => show win0_2.index t 0 * 1 ≤ (i 0).val ∧ (i 0).val < win0_2.index t 0 * 1 + 1; rw [e0]; omega
  | ⟨1, _⟩ => show win0_2.index t 1 * 1 ≤ (i 1).val ∧ (i 1).val < win0_2.index t 1 * 1 + 1; rw [e1]; omega
  | ⟨2, _⟩ => show win0_2.index t 2 * 1 ≤ (i 2).val ∧ (i 2).val < win0_2.index t 2 * 1 + 1; rw [e2]; omega

/-- So the output array ends holding the two halves' totals. -/
theorem final (c : Dev nD) : (dats m 0 c).arrAt 2 cfg0.N = halves m c :=
  (dats m 0 c).arrAt_eq_of_cover 2 (halves m c) (flushed_eq m c) (cover)

/-! ## The host lines after the call -/

/-- The result: the host lines' formula of the scalar argument and of the sum of the two entries. -/
def result (c : Dev nD) : Buf (Elt Ideal) ((c.tc : Thread nD τ).loc main_v12) :=
  subf (subf (mulf (mulf (constant (F := Ideal) S_ .f32 0xBF000000#32) (constant (F := Ideal) S_ .f32 0x4D000000#32)) (constant (F := Ideal) S_ .f32 0x3FEB3F8E#32))
      (mulf (mulf (constant (F := Ideal) S_ .f32 0x3F000000#32) (constant (F := Ideal) S_ .f32 0x4D000000#32)) (m ((c.tc : Thread nD τ).loc main_arg2))))
    (mulf (mulf (constant (F := Ideal) S_ .f32 0x3F000000#32) (Host.exp (F := Ideal) (mulf (constant (F := Ideal) S_ .f32 0xC0000000#32) (m ((c.tc : Thread nD τ).loc main_arg2)))))
      (Host.reduceAdd (F := Ideal) (shapeCast S2 (halves m c) shapeCasts_S2x1x1_S2) (constant (F := Ideal) S_ .f32 0x00000000#32) reducesTo_S2_S_d0 h_S_))

theorem tail_eq (c : Dev nD) : Pipeline.afterTail₀ cfgs (dats m) 0 (V0 m) [hostOps1] c main_v12 = result m c := by
  have hA : Pipeline.withArrays (cfgs 0).spec c (V0 m c) (fun w => (dats m 0 c).arrAt w (cfgs 0).N) (Proc.devRef .tc main_v0) = halves m c :=
    (Pipeline.withArrays_arr spec0 launch0.win.arr_inj c _ _ 2).trans (final m c)
  have hN : Pipeline.withArrays (cfgs 0).spec c (V0 m c) (fun w => (dats m 0 c).arrAt w (cfgs 0).N) (Proc.devRef .tc main_arg2) = m ((c.tc : Thread nD τ).loc main_arg2) :=
    (Pipeline.withArrays_of_ne _ c (V0 m c) _ main_arg2 (by exact (by decide : ∀ w, Pipeline.arrRef spec0 w ≠ main_arg2))).trans (V_main_arg2 m c)
  unfold Pipeline.afterTail₀
  show StableHlo.after hostOps1 _ (Proc.devRef .tc main_v12) = _
  after_results
  rw [hA, hN]
  rfl

/-- The run, read: the result at the formula, the arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)

/-! ## The two entries together are the whole sum -/

/-- The squared difference of the two arguments at row `a`, lane `l`. -/
def sqd (o x : S4194304x32.Idx → EReal) (a : Fin 4194304) (l : Fin 32) : EReal :=
  (o (ix2 a l) - x (ix2 a l)) * (o (ix2 a l) - x (ix2 a l))

/-- An input block at point `t` reads its argument at rows `8192 t` onwards. -/
theorem blkA_apply (c : Dev nD) (t : Fin cfg0.N) (r : Fin 8192) (l : Fin 32) (hb : 8192 * t.val + r.val < 4194304) :
    blkA m c t (ix2 r l) = m ((c.tc : Thread nD τ).loc main_arg0) (ix2 ⟨8192 * t.val + r.val, hb⟩ l) := by
  obtain ⟨e0, e1, e2, e3⟩ := idx_in t
  show iblk m c 0 t (ix2 r l) = _
  unfold iblk
  rw [View.read_apply]
  show V m c main_arg0 _ = m (c.tc.loc main_arg0) _
  rw [V_main_arg0]
  congr 1
  funext a
  apply Fin.ext
  match a with
  | ⟨0, _⟩ => show win0_0.index t 0 * 8192 + 1 * r.val = 8192 * t.val + r.val; rw [e0]; omega
  | ⟨1, _⟩ => show win0_0.index t 1 * 32 + 1 * l.val = l.val; rw [e1]; omega

theorem blkB_apply (c : Dev nD) (t : Fin cfg0.N) (r : Fin 8192) (l : Fin 32) (hb : 8192 * t.val + r.val < 4194304) :
    blkB m c t (ix2 r l) = m ((c.tc : Thread nD τ).loc main_arg1) (ix2 ⟨8192 * t.val + r.val, hb⟩ l) := by
  obtain ⟨e0, e1, e2, e3⟩ := idx_in t
  show iblk m c 1 t (ix2 r l) = _
  unfold iblk
  rw [View.read_apply]
  show V m c main_arg1 _ = m (c.tc.loc main_arg1) _
  rw [V_main_arg1]
  congr 1
  funext a
  apply Fin.ext
  match a with
  | ⟨0, _⟩ => show win0_1.index t 0 * 8192 + 1 * r.val = 8192 * t.val + r.val; rw [e2]; omega
  | ⟨1, _⟩ => show win0_1.index t 1 * 32 + 1 * l.val = l.val; rw [e3]; omega

/-- Tile `k`'s term is the sum of the squared differences over rows `8192 k` to `8192 k + 8191`. -/
theorem term_eq (c : Dev nD) (k : Fin 512) :
    term m c k.val = ∑ r : Fin 8192, ∑ l : Fin 32,
      sqd (m ((c.tc : Thread nD τ).loc main_arg0)) (m ((c.tc : Thread nD τ).loc main_arg1)) ⟨8192 * k.val + r.val, blk_lt k r⟩ l := by
  have hk : k.val < cfg0.N := by rw [show cfg0.N = 512 from N_0]; exact k.isLt
  rw [term_of_lt m c k.val hk]
  unfold tileSq sqd
  refine Finset.sum_congr rfl fun r _ => Finset.sum_congr rfl fun l _ => ?_
  rw [blkA_apply m c ⟨k.val, hk⟩ r l (blk_lt k r), blkB_apply m c ⟨k.val, hk⟩ r l (blk_lt k r)]

/-- A sum over the indices of a vector is the sum over its one coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- The host's sum of the two entries, from zero, is the sum over every row and lane. -/
theorem sum_halves (c : Dev nD) (i : S_.Idx) :
    Host.reduceAdd (F := Ideal) (shapeCast S2 (halves m c) shapeCasts_S2x1x1_S2) (constant (F := Ideal) S_ .f32 0x00000000#32) reducesTo_S2_S_d0 h_S_ i
      = ∑ a : Fin 4194304, ∑ l : Fin 32, sqd (m ((c.tc : Thread nD τ).loc main_arg0)) (m ((c.tc : Thread nD τ).loc main_arg1)) a l := by
  show Ideal.hostReduceAdd reducesTo_S2_S_d0 _ _ i = _
  rw [Ideal.hostReduceAdd_total reducesTo_S2_S_d0 (fun b => b.elim0)]
  show Ideal.ofBits .f32 0x00000000#32 + _ = _
  rw [Ideal.ofBits_zero_f32, zero_add, sum_idx1, ← groups_total _ (term m c) (term_eq m c)]
  refine Finset.sum_congr rfl fun p _ => ?_
  refine (shapeCast_apply _ _ _ (ix3 p (0 : Fin 1) (0 : Fin 1)) (by
    rw [Shape.rowMajor_val_three, Shape.rowMajor_val_one]
    show (p.val * 1 + 0) * 1 + 0 = p.val
    omega)).trans ?_
  rfl

end Cert.KernelIdeal.Final

end
-- ==== Proof.RefSum.lean ====
/-
  The reference against the kernel. The reference subtracts the two arguments entry by entry, squares, and adds all
  4194304 x 32 entries from zero in one reduction; the lines that follow combine that sum with the scalar argument and
  are, word for word, the host lines that follow the kernel's call. Over the extended reals the reduction is the sum
  over every row and lane of the squared difference, which is also what the kernel's two half totals add up to. So the
  two results are the same formula of the same sum.
-/
import proofs.«122282_j16166256902676_1_alg».proof.Proof.Final
import proofs.«122282_j16166256902676_1_alg».proof.Proof.Gen.ReferenceIdeal.Read

noncomputable section

namespace Cert.ReferenceIdeal.RefSum

open Cert.ReferenceIdeal Cert.ReferenceIdeal.Gen
open Idealize.ShloMosaic Idealize.ShloMosaic.TcCoe Idealize.ShloMosaic.ValueIdx Idealize.SL.Sem

/-- The reference's reduction from zero is the sum over every row and lane of the squared difference. -/
theorem sum_all (o x : (⟨S4194304x32, .f32⟩ : BufTy).Contents (Elt Ideal)) (i : S_.Idx) :
    Host.reduceAdd (F := Ideal) (mulf (F := Ideal) (subf (F := Ideal) o x) (subf (F := Ideal) o x)) (constant (F := Ideal) S_ .f32 0x00000000#32)
        reducesTo_S4194304x32_S_d0_1 h_S_ i
      = ∑ a : Fin 4194304, ∑ l : Fin 32, Cert.KernelIdeal.Final.sqd o x a l := by
  show Ideal.hostReduceAdd reducesTo_S4194304x32_S_d0_1 _ _ i = _
  rw [Ideal.hostReduceAdd_total reducesTo_S4194304x32_S_d0_1 (fun b => b.elim0)]
  show Ideal.ofBits .f32 0x00000000#32 + _ = _
  rw [Ideal.ofBits_zero_f32, zero_add, sum_idx2]
  rfl

/-- The reference's result, at the kernel's arguments, is the kernel's result. -/
theorem result_eq (m : (ℓ : Loc Cert.KernelIdeal.nD Cert.KernelIdeal.τ Cert.KernelIdeal.sig) → Buf (Elt Ideal) ℓ) (c : Dev Cert.KernelIdeal.nD) :
    subf (subf (mulf (mulf (constant (F := Ideal) S_ .f32 0xBF000000#32) (constant (F := Ideal) S_ .f32 0x4D000000#32)) (constant (F := Ideal) S_ .f32 0x3FEB3F8E#32))
        (mulf (mulf (constant (F := Ideal) S_ .f32 0x3F000000#32) (constant (F := Ideal) S_ .f32 0x4D000000#32))
          (m ((c.tc : Thread Cert.KernelIdeal.nD Cert.KernelIdeal.τ).loc Cert.KernelIdeal.main_arg2))))
      (mulf (mulf (constant (F := Ideal) S_ .f32 0x3F000000#32) (Host.exp (F := Ideal) (mulf (constant (F := Ideal) S_ .f32 0xC0000000#32)
          (m ((c.tc : Thread Cert.KernelIdeal.nD Cert.KernelIdeal.τ).loc Cert.KernelIdeal.main_arg2)))))
        (Host.reduceAdd (F := Ideal) (mulf (F := Ideal)
            (subf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
            (subf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))))
          (constant (F := Ideal) S_ .f32 0x00000000#32) reducesTo_S4194304x32_S_d0_1 h_S_))
      = Cert.KernelIdeal.Final.result m c := by
  have hsq : Host.reduceAdd (F := Ideal) (mulf (F := Ideal)
            (subf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
            (subf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))))
          (constant (F := Ideal) S_ .f32 0x00000000#32) reducesTo_S4194304x32_S_d0_1 h_S_
        = Host.reduceAdd (F := Ideal) (shapeCast Cert.KernelIdeal.S2 (Cert.KernelIdeal.Final.halves m c) Cert.KernelIdeal.Gen.shapeCasts_S2x1x1_S2)
            (constant (F := Ideal) Cert.KernelIdeal.S_ .f32 0x00000000#32) Cert.KernelIdeal.Gen.reducesTo_S2_S_d0 Cert.KernelIdeal.Gen.h_S_ :=
    funext fun i => (sum_all _ _ i).trans (Cert.KernelIdeal.Final.sum_halves m c i).symm
  rw [hsq]
  rfl

end Cert.ReferenceIdeal.RefSum

end
-- ==== Proof.lean ====
/-
  The certificate: the kernel sums the squared differences of its two arguments tile by tile into two half totals, adds
  the two, and puts the sum through a fixed formula with the scalar argument; the reference sums all the squared
  differences at once and uses the same formula. Over the extended reals the two sums are equal by regrouping a finite
  sum in a commutative monoid, with no appeal to finiteness of the inputs. The three programs run to the end with their
  arguments unchanged; the idealized kernel is the kernel's own text, the idealization having rewritten nothing.
-/
import proofs.«122282_j16166256902676_1_alg».proof.Defs
import proofs.«122282_j16166256902676_1_alg».proof.Proof.Gen.Kernel
import proofs.«122282_j16166256902676_1_alg».proof.Proof.Gen.Kernel.Skeleton
import proofs.«122282_j16166256902676_1_alg».proof.Proof.Gen.Kernel.Launch
import proofs.«122282_j16166256902676_1_alg».proof.Proof.Gen.Kernel.Points
import proofs.«122282_j16166256902676_1_alg».proof.Proof.Gen.Kernel.Frame
import proofs.«122282_j16166256902676_1_alg».proof.Proof.Gen.KernelIdeal
import proofs.«122282_j16166256902676_1_alg».proof.Proof.Gen.KernelIdeal.Skeleton
import proofs.«122282_j16166256902676_1_alg».proof.Proof.Gen.KernelIdeal.Launch
import proofs.«122282_j16166256902676_1_alg».proof.Proof.Gen.KernelIdeal.Points
import proofs.«122282_j16166256902676_1_alg».proof.Proof.Gen.KernelIdeal.Frame
import proofs.«122282_j16166256902676_1_alg».proof.Proof.Gen.ReferenceIdeal
import proofs.«122282_j16166256902676_1_alg».proof.Proof.Gen.Pre_finite_inputs
import proofs.«122282_j16166256902676_1_alg».proof.Proof.Gen.ReferenceIdeal.Run
import proofs.«122282_j16166256902676_1_alg».proof.Proof.Gen.ReferenceIdeal.Read
import proofs.«122282_j16166256902676_1_alg».proof.Proof.Final
import proofs.«122282_j16166256902676_1_alg».proof.Proof.RefSum
import Idealize.ShloMosaic.Adequacy
import Idealize.ShloMosaic.Init

noncomputable section

namespace Cert.Proof

open Idealize.ShloMosaic Idealize.ShloMosaic.TcCoe Idealize.SL.Sem

/-- The kernel, read word by word, runs to the end and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: it runs to the end, and its run names every result. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result: the kernel's is the fixed formula
    of the two half totals' sum, the reference's the same formula of the whole sum, and the two sums are equal. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefSum.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
